-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x9x512x512 : Shape := ⟨4, ![16, 9, 512, 512]⟩
abbrev S16x1x512x512 : Shape := ⟨4, ![16, 1, 512, 512]⟩
abbrev S_ : Shape := ⟨0, ![]⟩

class Facts : Prop where
  bcast_S_S16x9x512x512 : S_.BroadcastsInDim S16x9x512x512 (![] : Fin 0 → Fin S16x9x512x512.rank)
  reducesTo_S16x9x512x512_S_d0_1_2_3 : S16x9x512x512.ReducesTo [0, 1, 2, 3] S_
  h_S_ : 0 < S_.numel
  bcast_S_S16x1x512x512 : S_.BroadcastsInDim S16x1x512x512 (![] : Fin 0 → Fin S16x1x512x512.rank)
  reducesTo_S16x1x512x512_S_d0_1_2_3 : S16x1x512x512.ReducesTo [0, 1, 2, 3] S_

variable [Facts]

def fn {F : FTy → Type} [FloatOps F] (main_arg0 : FVec F S16x9x512x512 .f32) (main_arg1 : FVec F S16x1x512x512 .f32) : IVec S_ 1 :=
  let main_v0 : FVec F S16x9x512x512 .f32 := Host.absf main_arg0
  let main_cst : FVec F S_ .f32 := constant S_ .f32 0x7F800000#32
  let main_v1 : FVec F S16x9x512x512 .f32 := broadcastInDim S16x9x512x512 ![] bcast_S_S16x9x512x512 main_cst
  let main_v2 : IVec S16x9x512x512 1 := cmpf .olt main_v0 main_v1
  let main_c : IVec S_ 1 := constantI S_ 1 1#1
  let main_v3 : IVec S_ 1 := (fun x v => Host.reduce IntOp.andi x v reducesTo_S16x9x512x512_S_d0_1_2_3 h_S_) main_v2 main_c
  let main_v4 : FVec F S16x1x512x512 .f32 := Host.absf main_arg1
  let main_cst_0 : FVec F S_ .f32 := constant S_ .f32 0x7F800000#32
  let main_v5 : FVec F S16x1x512x512 .f32 := broadcastInDim S16x1x512x512 ![] bcast_S_S16x1x512x512 main_cst_0
  let main_v6 : IVec S16x1x512x512 1 := cmpf .olt main_v4 main_v5
  let main_c_1 : IVec S_ 1 := constantI S_ 1 1#1
  let main_v7 : IVec S_ 1 := (fun x v => Host.reduce IntOp.andi x v reducesTo_S16x1x512x512_S_d0_1_2_3 h_S_) main_v6 main_c_1
  let main_v8 : IVec S_ 1 := andi main_v3 main_v7
  main_v8
-- ==== Kernel.lean ====
abbrev S16x9x512x512 : Shape := ⟨4, ![16, 9, 512, 512]⟩
abbrev S16x1x512x512 : Shape := ⟨4, ![16, 1, 512, 512]⟩
abbrev S_ : Shape := ⟨0, ![]⟩
abbrev S16x1x514x514 : Shape := ⟨4, ![16, 1, 514, 514]⟩
abbrev S1x1x514x514 : Shape := ⟨4, ![1, 1, 514, 514]⟩
abbrev S1x9x512x512 : Shape := ⟨4, ![1, 9, 512, 512]⟩
abbrev S1x1x512x512 : Shape := ⟨4, ![1, 1, 512, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S16x9x512x512, .f32⟩
  | .hbm, ⟨1, _⟩ => ⟨S16x1x512x512, .f32⟩
  | .hbm, ⟨2, _⟩ => ⟨S_, .i32⟩
  | .hbm, ⟨3, _⟩ => ⟨S_, .f32⟩
  | .hbm, ⟨4, _⟩ => ⟨S16x1x514x514, .f32⟩
  | .hbm, ⟨5, _⟩ => ⟨S16x1x512x512, .f32⟩
  | .local _ .vmem, ⟨0, _⟩ => ⟨S1x1x514x514, .f32⟩
  | .local _ .vmem, ⟨1, _⟩ => ⟨S1x1x514x514, .f32⟩
  | .local _ .vmem, ⟨2, _⟩ => ⟨S1x9x512x512, .f32⟩
  | .local _ .vmem, ⟨3, _⟩ => ⟨S1x9x512x512, .f32⟩
  | .local _ .vmem, ⟨4, _⟩ => ⟨S1x1x512x512, .f32⟩
  | .local _ .vmem, ⟨5, _⟩ => ⟨S1x1x512x512, .f32⟩
  | _, _ => ⟨S16x9x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x514x514 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S16x1x512x512_S16x1x514x514_000_000_110_110 : S16x1x512x512.Pads (![0, 0, 1, 1] : Fin 4 → Nat) ![0, 0, 1, 1] ![0, 0, 0, 0] S16x1x514x514
  h_S_ : 0 < S_.numel
  inb_S1x1x514x514_S1x1x512x512_0_0_0_0 : ∀ a, (![0, 0, 0, 0] : Fin 4 → Nat) a + S1x1x512x512.size a ≤ S1x1x514x514.size a
  h_S1x1x512x512 : 0 < S1x1x512x512.numel
  shapeCasts_S1x1x512x512_S512x512 : S1x1x512x512.ShapeCasts S512x512
  inb_S1x9x512x512_S1x1x512x512_0_0_0_0 : ∀ a, (![0, 0, 0, 0] : Fin 4 → Nat) a + S1x1x512x512.size a ≤ S1x9x512x512.size a
  inb_S1x1x514x514_S1x1x512x512_0_0_1_0 : ∀ a, (![0, 0, 1, 0] : Fin 4 → Nat) a + S1x1x512x512.size a ≤ S1x1x514x514.size a
  inb_S1x9x512x512_S1x1x512x512_0_1_0_0 : ∀ a, (![0, 1, 0, 0] : Fin 4 → Nat) a + S1x1x512x512.size a ≤ S1x9x512x512.size a
  inb_S1x1x514x514_S1x1x512x512_0_0_2_0 : ∀ a, (![0, 0, 2, 0] : Fin 4 → Nat) a + S1x1x512x512.size a ≤ S1x1x514x514.size a
  inb_S1x9x512x512_S1x1x512x512_0_2_0_0 : ∀ a, (![0, 2, 0, 0] : Fin 4 → Nat) a + S1x1x512x512.size a ≤ S1x9x512x512.size a
  inb_S1x1x514x514_S1x1x512x512_0_0_0_1 : ∀ a, (![0, 0, 0, 1] : Fin 4 → Nat) a + S1x1x512x512.size a ≤ S1x1x514x514.size a
  inb_S1x9x512x512_S1x1x512x512_0_3_0_0 : ∀ a, (![0, 3, 0, 0] : Fin 4 → Nat) a + S1x1x512x512.size a ≤ S1x9x512x512.size a
  inb_S1x1x514x514_S1x1x512x512_0_0_1_1 : ∀ a, (![0, 0, 1, 1] : Fin 4 → Nat) a + S1x1x512x512.size a ≤ S1x1x514x514.size a
  inb_S1x9x512x512_S1x1x512x512_0_4_0_0 : ∀ a, (![0, 4, 0, 0] : Fin 4 → Nat) a + S1x1x512x512.size a ≤ S1x9x512x512.size a
  inb_S1x1x514x514_S1x1x512x512_0_0_2_1 : ∀ a, (![0, 0, 2, 1] : Fin 4 → Nat) a + S1x1x512x512.size a ≤ S1x1x514x514.size a
  inb_S1x9x512x512_S1x1x512x512_0_5_0_0 : ∀ a, (![0, 5, 0, 0] : Fin 4 → Nat) a + S1x1x512x512.size a ≤ S1x9x512x512.size a
  inb_S1x1x514x514_S1x1x512x512_0_0_0_2 : ∀ a, (![0, 0, 0, 2] : Fin 4 → Nat) a + S1x1x512x512.size a ≤ S1x1x514x514.size a
  inb_S1x9x512x512_S1x1x512x512_0_6_0_0 : ∀ a, (![0, 6, 0, 0] : Fin 4 → Nat) a + S1x1x512x512.size a ≤ S1x9x512x512.size a
  inb_S1x1x514x514_S1x1x512x512_0_0_1_2 : ∀ a, (![0, 0, 1, 2] : Fin 4 → Nat) a + S1x1x512x512.size a ≤ S1x1x514x514.size a
  inb_S1x9x512x512_S1x1x512x512_0_7_0_0 : ∀ a, (![0, 7, 0, 0] : Fin 4 → Nat) a + S1x1x512x512.size a ≤ S1x9x512x512.size a
  inb_S1x1x514x514_S1x1x512x512_0_0_2_2 : ∀ a, (![0, 0, 2, 2] : Fin 4 → Nat) a + S1x1x512x512.size a ≤ S1x1x514x514.size a
  inb_S1x9x512x512_S1x1x512x512_0_8_0_0 : ∀ a, (![0, 8, 0, 0] : Fin 4 → Nat) a + S1x1x512x512.size a ≤ S1x9x512x512.size a
  inb_S1x1x512x512_S1x1x512x512_0_0_0_0 : ∀ a, (![0, 0, 0, 0] : Fin 4 → Nat) a + S1x1x512x512.size a ≤ S1x1x512x512.size a
  shapeCasts_S512x512_S1x1x512x512 : S512x512.ShapeCasts S1x1x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x514x514.size a ≤ S16x1x514x514.size a
  hwx0_0 : ∀ i : grid0.Coords, EltTy.bits .f32 = 32 ∨ (Rect.block (s := S16x1x514x514) S1x1x514x514.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x9x512x512.size a ≤ S16x9x512x512.size a
  hwx0_1 : ∀ i : grid0.Coords, EltTy.bits .f32 = 32 ∨ (Rect.block (s := S16x9x512x512) S1x9x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x512.size a ≤ S16x1x512x512.size a
  hwx0_2 : ∀ i : grid0.Coords, EltTy.bits .f32 = 32 ∨ (Rect.block (s := S16x1x512x512) S1x1x512x512.size (cc0_transform_2 i) (hinb0_2 i)).WholeWords (EltTy.packing .f32)

variable [Facts₀]

abbrev win0_0 : Pipeline.Window sig grid0 :=
  Pipeline.Window.ofSpec (Memref.whole main_v0) S1x1x514x514.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x9x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x9x512x512 : Shape := ⟨4, ![16, 9, 512, 512]⟩
abbrev S16x1x512x512 : Shape := ⟨4, ![16, 1, 512, 512]⟩
abbrev S_ : Shape := ⟨0, ![]⟩
abbrev S16x1x514x514 : Shape := ⟨4, ![16, 1, 514, 514]⟩

abbrev nBuf : Space → Nat
  | .hbm => 43
  | .vmem => 0
  | .smem => 0
  | _ => 0

abbrev bufTy : (tb : Table) → Fin (tcTables nBuf tb) → BufTy
  | .hbm, ⟨0, _⟩ => ⟨S16x9x512x512, .f32⟩
  | .hbm, ⟨1, _⟩ => ⟨S16x1x512x512, .f32⟩
  | .hbm, ⟨2, _⟩ => ⟨S_, .i32⟩
  | .hbm, ⟨3, _⟩ => ⟨S_, .f32⟩
  | .hbm, ⟨4, _⟩ => ⟨S16x1x514x514, .f32⟩
  | .hbm, ⟨5, _⟩ => ⟨S_, .f32⟩
  | .hbm, ⟨6, _⟩ => ⟨S16x1x512x512, .f32⟩
  | .hbm, ⟨7, _⟩ => ⟨S16x1x512x512, .f32⟩
  | .hbm, ⟨8, _⟩ => ⟨S16x1x512x512, .f32⟩
  | .hbm, ⟨9, _⟩ => ⟨S16x1x512x512, .f32⟩
  | .hbm, ⟨10, _⟩ => ⟨S16x1x512x512, .f32⟩
  | .hbm, ⟨11, _⟩ => ⟨S16x1x512x512, .f32⟩
  | .hbm, ⟨12, _⟩ => ⟨S16x1x512x512, .f32⟩
  | .hbm, ⟨13, _⟩ => ⟨S16x1x512x512, .f32⟩
  | .hbm, ⟨14, _⟩ => ⟨S16x1x512x512, .f32⟩
  | .hbm, ⟨15, _⟩ => ⟨S16x1x512x512, .f32⟩
  | .hbm, ⟨16, _⟩ => ⟨S16x1x512x512, .f32⟩
  | .hbm, ⟨17, _⟩ => ⟨S16x1x512x512, .f32⟩
  | .hbm, ⟨18, _⟩ => ⟨S16x1x512x512, .f32⟩
  | .hbm, ⟨19, _⟩ => ⟨S16x1x512x512, .f32⟩
  | .hbm, ⟨20, _⟩ => ⟨S16x1x512x512, .f32⟩
  | .hbm, ⟨21, _⟩ => ⟨S16x1x512x512, .f32⟩
  | .hbm, ⟨22, _⟩ => ⟨S16x1x512x512, .f32⟩
  | .hbm, ⟨23, _⟩ => ⟨S16x1x512x512, .f32⟩
  | .hbm, ⟨24, _⟩ => ⟨S16x1x512x512, .f32⟩
  | .hbm, ⟨25, _⟩ => ⟨S16x1x512x512, .f32⟩
  | .hbm, ⟨26, _⟩ => ⟨S16x1x512x512, .f32⟩
  | .hbm, ⟨27, _⟩ => ⟨S16x1x512x512, .f32⟩
  | .hbm, ⟨28, _⟩ => ⟨S16x1x512x512, .f32⟩
  | .hbm, ⟨29, _⟩ => ⟨S16x1x512x512, .f32⟩
  | .hbm, ⟨30, _⟩ => ⟨S16x1x512x512, .f32⟩
  | .hbm, ⟨31, _⟩ => ⟨S16x1x512x512, .f32⟩
  | .hbm, ⟨32, _⟩ => ⟨S16x1x512x512, .f32⟩
  | .hbm, ⟨33, _⟩ => ⟨S16x1x512x512, .f32⟩
  | .hbm, ⟨34, _⟩ => ⟨S16x1x512x512, .f32⟩
  | .hbm, ⟨35, _⟩ => ⟨S16x1x512x512, .f32⟩
  | .hbm, ⟨36, _⟩ => ⟨S16x1x512x512, .f32⟩
  | .hbm, ⟨37, _⟩ => ⟨S16x1x512x512, .f32⟩
  | .hbm, ⟨38, _⟩ => ⟨S16x1x512x512, .f32⟩
  | .hbm, ⟨39, _⟩ => ⟨S16x1x512x512, .f32⟩
  | .hbm, ⟨40, _⟩ => ⟨S16x1x512x512, .f32⟩
  | .hbm, ⟨41, _⟩ => ⟨S16x1x512x512, .f32⟩
  | .hbm, ⟨42, _⟩ => ⟨S16x1x512x512, .f32⟩
  | _, _ => ⟨S16x9x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩

abbrev nD : Nat := 1
abbrev τ : Topo := Topo.v7x

variable {F : FTy → Type} [FloatOps F]

class Facts₀ : Prop where
  pads_S16x1x512x512_S16x1x514x514_000_000_110_110 : S16x1x512x512.Pads (![0, 0, 1, 1] : Fin 4 → Nat) ![0, 0, 1, 1] ![0, 0, 0, 0] S16x1x514x514
  h_S_ : 0 < S_.numel
  bcast_S_S16x1x512x512 : S_.BroadcastsInDim S16x1x512x512 (![] : Fin 0 → Fin S16x1x512x512.rank)
  slices_S16x1x514x514_S16x1x512x512_0_0_0_0 : S16x1x514x514.Slices ![0, 0, 0, 0] S16x1x512x512
  slices_S16x9x512x512_S16x1x512x512_0_0_0_0 : S16x9x512x512.Slices ![0, 0, 0, 0] S16x1x512x512
  slices_S16x1x514x514_S16x1x512x512_0_0_1_0 : S16x1x514x514.Slices ![0, 0, 1, 0] S16x1x512x512
  slices_S16x9x512x512_S16x1x512x512_0_1_0_0 : S16x9x512x512.Slices ![0, 1, 0, 0] S16x1x512x512
  slices_S16x1x514x514_S16x1x512x512_0_0_2_0 : S16x1x514x514.Slices ![0, 0, 2, 0] S16x1x512x512
  slices_S16x9x512x512_S16x1x512x512_0_2_0_0 : S16x9x512x512.Slices ![0, 2, 0, 0] S16x1x512x512
  slices_S16x1x514x514_S16x1x512x512_0_0_0_1 : S16x1x514x514.Slices ![0, 0, 0, 1] S16x1x512x512
  slices_S16x9x512x512_S16x1x512x512_0_3_0_0 : S16x9x512x512.Slices ![0, 3, 0, 0] S16x1x512x512
  slices_S16x1x514x514_S16x1x512x512_0_0_1_1 : S16x1x514x514.Slices ![0, 0, 1, 1] S16x1x512x512
  slices_S16x9x512x512_S16x1x512x512_0_4_0_0 : S16x9x512x512.Slices ![0, 4, 0, 0] S16x1x512x512
  slices_S16x1x514x514_S16x1x512x512_0_0_2_1 : S16x1x514x514.Slices ![0, 0, 2, 1] S16x1x512x512
  slices_S16x9x512x512_S16x1x512x512_0_5_0_0 : S16x9x512x512.Slices ![0, 5, 0, 0] S16x1x512x512
  slices_S16x1x514x514_S16x1x512x512_0_0_0_2 : S16x1x514x514.Slices ![0, 0, 0, 2] S16x1x512x512
  slices_S16x9x512x512_S16x1x512x512_0_6_0_0 : S16x9x512x512.Slices ![0, 6, 0, 0] S16x1x512x512
  slices_S16x1x514x514_S16x1x512x512_0_0_1_2 : S16x1x514x514.Slices ![0, 0, 1, 2] S16x1x512x512
  slices_S16x9x512x512_S16x1x512x512_0_7_0_0 : S16x9x512x512.Slices ![0, 7, 0, 0] S16x1x512x512
  slices_S16x1x514x514_S16x1x512x512_0_0_2_2 : S16x1x514x514.Slices ![0, 0, 2, 2] S16x1x512x512
  slices_S16x9x512x512_S16x1x512x512_0_8_0_0 : S16x9x512x512.Slices ![0, 8, 0, 0] S16x1x512x512

variable [Facts₀]

class Facts : Prop extends Facts₀ where

variable [Facts]
-- ==== Proof.ConvSpec.lean ====
/-
  The per-pixel 3×3 convolution, as ONE function of the whole arrays.

  For a weight array `ker : [16, 9, 512, 512]` and a zero-padded image `img : [16, 1, 514, 514]` (one row and one
  column of padding on every side of a 512 × 512 image), the output pixel `(b, 0, h, w)` is

      (((0 + img[b,0,h+0,w+0]·ker[b,0,h,w]) + img[b,0,h+1,w+0]·ker[b,1,h,w]) + img[b,0,h+2,w+0]·ker[b,2,h,w]) + …
        … + img[b,0,h+2,w+2]·ker[b,8,h,w]

  nine products added onto zero ONE AFTER THE OTHER, the row shift `dh` running fastest and the column shift `dw`
  slowest, the weight channel being `3·dw + dh`. The order and the grouping of the additions are part of the
  definition: both programs add in exactly this order, so no law of arithmetic is needed to compare them, and the
  definition is stated for any float instance `F`.
-/
import Idealize.ShloMosaic.PureOps.Ideal
import Idealize.ShloMosaic.Lib.ValueIdx

noncomputable section

open Idealize.ShloMosaic

namespace Cert.PixelConv

/-- The per-pixel weights: batch, the nine taps, rows, columns. -/
abbrev SKer : Shape := ⟨4, ![16, 9, 512, 512]⟩
/-- The image with one row and one column of zeros on every side. -/
abbrev SPad : Shape := ⟨4, ![16, 1, 514, 514]⟩
/-- The output image. -/
abbrev SOut : Shape := ⟨4, ![16, 1, 512, 512]⟩

variable {F : FTy → Type} [FloatOps F]

/-- The pixel of the padded image that lies `dh` rows below and `dw` columns right of output pixel `i`
    (shifts at most 2: the padded image is two rows and two columns larger). -/
def shifted (dh dw : Nat) (hdh : dh ≤ 2) (hdw : dw ≤ 2) (i : SOut.Idx) : SPad.Idx := fun a => match a with
  | ⟨0, _⟩ => ⟨(i 0).val, (i 0).isLt⟩
  | ⟨1, _⟩ => ⟨(i 1).val, (i 1).isLt⟩
  | ⟨2, _⟩ => ⟨dh + (i 2).val, by have h : (i 2).val < 512 := (i 2).isLt; show dh + (i 2).val < 514; omega⟩
  | ⟨3, _⟩ => ⟨dw + (i 3).val, by have h : (i 3).val < 512 := (i 3).isLt; show dw + (i 3).val < 514; omega⟩

/-- The weight of tap `k` (at most 8) at output pixel `i`: channel `k` of the weights at the same batch, row and
    column. -/
def weight (k : Nat) (hk : k ≤ 8) (i : SOut.Idx) : SKer.Idx := fun a => match a with
  | ⟨0, _⟩ => ⟨(i 0).val, (i 0).isLt⟩
  | ⟨1, _⟩ => ⟨k + (i 1).val, by have h : (i 1).val < 1 := (i 1).isLt; show k + (i 1).val < 9; omega⟩
  | ⟨2, _⟩ => ⟨(i 2).val, (i 2).isLt⟩
  | ⟨3, _⟩ => ⟨(i 3).val, (i 3).isLt⟩

/-- An index of the padded image with the coordinates of `shifted dh dw i` IS that index. -/
theorem eq_shifted (dh dw : Nat) (hdh : dh ≤ 2) (hdw : dw ≤ 2) (i : SOut.Idx) (k : SPad.Idx)
    (h0 : (k 0).val = (i 0).val) (h1 : (k 1).val = (i 1).val) (h2 : (k 2).val = dh + (i 2).val)
    (h3 : (k 3).val = dw + (i 3).val) : k = shifted dh dw hdh hdw i := by
  funext a; apply Fin.ext
  match a with
  | ⟨0, _⟩ => exact h0
  | ⟨1, _⟩ => exact h1
  | ⟨2, _⟩ => exact h2
  | ⟨3, _⟩ => exact h3

/-- An index of the weights with the coordinates of `weight k i` IS that index. -/
theorem eq_weight (k : Nat) (hk : k ≤ 8) (i : SOut.Idx) (j : SKer.Idx)
    (h0 : (j 0).val = (i 0).val) (h1 : (j 1).val = k + (i 1).val) (h2 : (j 2).val = (i 2).val)
    (h3 : (j 3).val = (i 3).val) : j = weight k hk i := by
  funext a; apply Fin.ext
  match a with
  | ⟨0, _⟩ => exact h0
  | ⟨1, _⟩ => exact h1
  | ⟨2, _⟩ => exact h2
  | ⟨3, _⟩ => exact h3

/-- One tap at output pixel `i`: the shifted padded pixel times its weight. -/
def tap (ker : Vec F SKer .f32) (img : Vec F SPad .f32) (i : SOut.Idx) (dh dw k : Nat) (hdh : dh ≤ 2) (hdw : dw ≤ 2)
    (hk : k ≤ 8) : F .f32 :=
  FloatOps.mulf (img (shifted dh dw hdh hdw i)) (ker (weight k hk i))

/-- A product of a padded pixel and a weight read at indices with the tap's coordinates is that tap. -/
theorem tap_of (ker : Vec F SKer .f32) (img : Vec F SPad .f32) (i : SOut.Idx) (dh dw k : Nat) (hdh : dh ≤ 2)
    (hdw : dw ≤ 2) (hk : k ≤ 8) (p : SPad.Idx) (q : SKer.Idx)
    (p0 : (p 0).val = (i 0).val) (p1 : (p 1).val = (i 1).val) (p2 : (p 2).val = dh + (i 2).val)
    (p3 : (p 3).val = dw + (i 3).val)
    (q0 : (q 0).val = (i 0).val) (q1 : (q 1).val = k + (i 1).val) (q2 : (q 2).val = (i 2).val)
    (q3 : (q 3).val = (i 3).val) :
    FloatOps.mulf (img p) (ker q) = tap ker img i dh dw k hdh hdw hk := by
  unfold tap
  rw [eq_shifted dh dw hdh hdw i p p0 p1 p2 p3, eq_weight k hk i q q0 q1 q2 q3]

/-- Nine terms added onto `z` one after the other, from the left. -/
def addNine (z p0 p1 p2 p3 p4 p5 p6 p7 p8 : F .f32) : F .f32 :=
  FloatOps.addf (FloatOps.addf (FloatOps.addf (FloatOps.addf (FloatOps.addf (FloatOps.addf (FloatOps.addf
    (FloatOps.addf (FloatOps.addf z p0) p1) p2) p3) p4) p5) p6) p7) p8

/-- Two such sums of equal terms are equal. -/
theorem addNine_congr (z : F .f32) {p0 p1 p2 p3 p4 p5 p6 p7 p8 q0 q1 q2 q3 q4 q5 q6 q7 q8 : F .f32}
    (h0 : p0 = q0) (h1 : p1 = q1) (h2 : p2 = q2) (h3 : p3 = q3) (h4 : p4 = q4) (h5 : p5 = q5) (h6 : p6 = q6)
    (h7 : p7 = q7) (h8 : p8 = q8) :
    addNine z p0 p1 p2 p3 p4 p5 p6 p7 p8 = addNine z q0 q1 q2 q3 q4 q5 q6 q7 q8 := by
  subst h0 h1 h2 h3 h4 h5 h6 h7 h8; rfl

/-- THE CONVOLUTION: at every output pixel the nine taps added onto the zero word in the order
    (dh, dw) = (0,0), (1,0), (2,0), (0,1), (1,1), (2,1), (0,2), (1,2), (2,2), tap (dh, dw) weighted by channel
    `3·dw + dh`. -/
def conv (ker : Vec F SKer .f32) (img : Vec F SPad .f32) : Vec F SOut .f32 := fun i =>
  addNine (FloatOps.ofBits .f32 0x00000000#32)
    (tap ker img i 0 0 0 (by omega) (by omega) (by omega))
    (tap ker img i 1 0 1 (by omega) (by omega) (by omega))
    (tap ker img i 2 0 2 (by omega) (by omega) (by omega))
    (tap ker img i 0 1 3 (by omega) (by omega) (by omega))
    (tap ker img i 1 1 4 (by omega) (by omega) (by omega))
    (tap ker img i 2 1 5 (by omega) (by omega) (by omega))
    (tap ker img i 0 2 6 (by omega) (by omega) (by omega))
    (tap ker img i 1 2 7 (by omega) (by omega) (by omega))
    (tap ker img i 2 2 8 (by omega) (by omega) (by omega))

end Cert.PixelConv

end
-- ==== Proof.KernelConv.lean ====
/-
  The kernel's result array IS the per-pixel convolution of the weights with the padded image.

  The grid has one point per batch entry. At point `t` the body sees three blocks: the padded image of batch entry
  `t` (a [1, 1, 514, 514] block), the nine weight channels of batch entry `t` (a [1, 9, 512, 512] block), and the
  output image of batch entry `t`. It loads nine 512 × 512 windows of the padded block, at row offsets `dh` and column
  offsets `dw`, nine channels of the weight block, and stores, over the whole output block, the nine products added onto
  zero in the order of `Cert.PixelConv.conv`. A block's element `z` is the array's element at `(t, z₁, z₂, z₃)`: so
  what point `t` writes back is block `t` of `conv` of the two arrays, the sixteen blocks tile the output array, and
  the array ends holding `conv`. The padded image is what the host operations before the region leave: the image
  padded with the converted integer zero.
-/
import proofs.«143331_j62045097558442_1_alg».proof.Proof.Gen.KernelIdeal.Value
import proofs.«143331_j62045097558442_1_alg».proof.Proof.ConvSpec
import Idealize.ShloMosaic.Lib.Pipeline.Value
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.ConvValue

open Cert.KernelIdeal Cert.KernelIdeal.Gen Cert.KernelIdeal.Value Cert.PixelConv

variable {F : FTy → Type} [FloatOps F]
variable (m : (ℓ : Loc nD τ sig) → Buf (Elt F) ℓ) (ρ : Dev nD → PrngReg)

/-- The three index maps over the sixteen grid points: every window's block index is the point's number on the batch
    axis and zero on the other three axes. -/
theorem block_indices : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- What the body leaves in the output block at `y`, from its two input blocks: nine products of a padded pixel and
    a weight, each read through the rectangle of its load, added onto zero from the left. -/
theorem out_at (x0 : Vec F S1x1x514x514 .f32) (x1 : Vec F S1x9x512x512 .f32) (y : S1x1x512x512.Idx) :
    out0_2 x0 x1 y = addNine (FloatOps.ofBits .f32 0x00000000#32)
      (FloatOps.mulf (x0 (r0_0.idx (ix2_0 y))) (x1 (r0_1.idx (ix2_1 y))))
      (FloatOps.mulf (x0 (r0_2.idx (ix2_2 y))) (x1 (r0_3.idx (ix2_3 y))))
      (FloatOps.mulf (x0 (r0_4.idx (ix2_4 y))) (x1 (r0_5.idx (ix2_5 y))))
      (FloatOps.mulf (x0 (r0_6.idx (ix2_6 y))) (x1 (r0_7.idx (ix2_7 y))))
      (FloatOps.mulf (x0 (r0_8.idx (ix2_8 y))) (x1 (r0_9.idx (ix2_9 y))))
      (FloatOps.mulf (x0 (r0_10.idx (ix2_10 y))) (x1 (r0_11.idx (ix2_11 y))))
      (FloatOps.mulf (x0 (r0_12.idx (ix2_12 y))) (x1 (r0_13.idx (ix2_13 y))))
      (FloatOps.mulf (x0 (r0_14.idx (ix2_14 y))) (x1 (r0_15.idx (ix2_15 y))))
      (FloatOps.mulf (x0 (r0_16.idx (ix2_16 y))) (x1 (r0_17.idx (ix2_17 y)))) := by
  unfold out0_2
  exact canon2_eq _ _ _ _ _ _ _ _ _ _ _ _ _ _ _ _ _ _ y

/-- The padded-image block at point `t`, at the element `dh` rows below and `dw` columns right of the output block's
    element `j`, is the padded image at the array index under `j` shifted the same way. -/
theorem pad_read (c : Dev nD) (t : Fin cfg0.N) (j : S1x1x512x512.Idx) (z : S1x1x514x514.Idx) (dh dw : Nat)
    (hdh : dh ≤ 2) (hdw : dw ≤ 2) (hz0 : (z 0).val = 0) (hz1 : (z 1).val = 0) (hz2 : (z 2).val = dh + (j 2).val)
    (hz3 : (z 3).val = dw + (j 3).val) :
    (iblk m c 0 t : Vec F S1x1x514x514 .f32) z
      = (V m c main_v0 : Vec F S16x1x514x514 .f32) (shifted dh dw hdh hdw (((cfg0.win 2).blk t).view.emb j)) := by
  obtain ⟨a0, a1, a2, a3, -, -, -, -, b0, b1, b2, b3⟩ := block_indices t
  have hj0 : (j 0).val < 1 := (j 0).isLt
  have hj1 : (j 1).val < 1 := (j 1).isLt
  unfold iblk
  rw [View.read_apply]
  show V m c main_v0 _ = V m c main_v0 _
  refine congrArg _ (eq_shifted dh dw hdh hdw _ _ ?_ ?_ ?_ ?_)
  · show win0_0.index t (0 : Fin 4) * 1 + 1 * (z 0).val = win0_2.index t (0 : Fin 4) * 1 + 1 * (j 0).val; omega
  · show win0_0.index t (1 : Fin 4) * 1 + 1 * (z 1).val = win0_2.index t (1 : Fin 4) * 1 + 1 * (j 1).val; omega
  · show win0_0.index t (2 : Fin 4) * 514 + 1 * (z 2).val = dh + (win0_2.index t (2 : Fin 4) * 512 + 1 * (j 2).val); omega
  · show win0_0.index t (3 : Fin 4) * 514 + 1 * (z 3).val = dw + (win0_2.index t (3 : Fin 4) * 512 + 1 * (j 3).val); omega

/-- The weight block at point `t`, at channel `k` over the output block's element `j`, is the weights at channel `k`
    over the array index under `j`. -/
theorem ker_read (c : Dev nD) (t : Fin cfg0.N) (j : S1x1x512x512.Idx) (z : S1x9x512x512.Idx) (k : Nat) (hk : k ≤ 8)
    (hz0 : (z 0).val = 0) (hz1 : (z 1).val = k) (hz2 : (z 2).val = (j 2).val) (hz3 : (z 3).val = (j 3).val) :
    (iblk m c 1 t : Vec F S1x9x512x512 .f32) z
      = (V m c main_arg0 : Vec F S16x9x512x512 .f32) (weight k hk (((cfg0.win 2).blk t).view.emb j)) := by
  obtain ⟨-, -, -, -, a0, a1, a2, a3, b0, b1, b2, b3⟩ := block_indices t
  have hj0 : (j 0).val < 1 := (j 0).isLt
  have hj1 : (j 1).val < 1 := (j 1).isLt
  unfold iblk
  rw [View.read_apply]
  show V m c main_arg0 _ = V m c main_arg0 _
  refine congrArg _ (eq_weight k hk _ _ ?_ ?_ ?_ ?_)
  · show win0_1.index t (0 : Fin 4) * 1 + 1 * (z 0).val = win0_2.index t (0 : Fin 4) * 1 + 1 * (j 0).val; omega
  · show win0_1.index t (1 : Fin 4) * 9 + 1 * (z 1).val = k + (win0_2.index t (1 : Fin 4) * 1 + 1 * (j 1).val); omega
  · show win0_1.index t (2 : Fin 4) * 512 + 1 * (z 2).val = win0_2.index t (2 : Fin 4) * 512 + 1 * (j 2).val; omega
  · show win0_1.index t (3 : Fin 4) * 512 + 1 * (z 3).val = win0_2.index t (3 : Fin 4) * 512 + 1 * (j 3).val; omega

/-- One product of the body at point `t` and block element `j` is the tap of the two arrays at the array index
    under `j`. -/
theorem tap_at (c : Dev nD) (t : Fin cfg0.N) (j : S1x1x512x512.Idx) (z0 : S1x1x514x514.Idx) (z1 : S1x9x512x512.Idx)
    (dh dw k : Nat) (hdh : dh ≤ 2) (hdw : dw ≤ 2) (hk : k ≤ 8)
    (p0 : (z0 0).val = 0) (p1 : (z0 1).val = 0) (p2 : (z0 2).val = dh + (j 2).val) (p3 : (z0 3).val = dw + (j 3).val)
    (q0 : (z1 0).val = 0) (q1 : (z1 1).val = k) (q2 : (z1 2).val = (j 2).val) (q3 : (z1 3).val = (j 3).val) :
    FloatOps.mulf ((iblk m c 0 t : Vec F S1x1x514x514 .f32) z0) ((iblk m c 1 t : Vec F S1x9x512x512 .f32) z1)
      = tap (F := F) (V m c main_arg0) (V m c main_v0) (((cfg0.win 2).blk t).view.emb j) dh dw k hdh hdw hk := by
  unfold tap
  rw [pad_read m c t j z0 dh dw hdh hdw p0 p1 p2 p3, ker_read m c t j z1 k hk q0 q1 q2 q3]

/-- WHAT POINT `t` WRITES BACK is block `t` of the convolution of the two arrays as the region finds them. -/
theorem flushed_eq (c : Dev nD) (t : Fin cfg0.N) :
    (dats m 0 c).flushed 2 t
      = ((cfg0.win 2).blk t).view.read (Elt F) (conv (F := F) (V m c main_arg0) (V m c main_v0)) := by
  rw [flushed2]
  funext j
  show out0_2 (iblk m c 0 t) (iblk m c 1 t) j
    = conv (F := F) (V m c main_arg0) (V m c main_v0) (((cfg0.win 2).blk t).view.emb j)
  refine (out_at (iblk m c 0 t) (iblk m c 1 t) j).trans ?_
  exact addNine_congr _
    (tap_at m c t j (r0_0.idx (ix2_0 j)) (r0_1.idx (ix2_1 j)) 0 0 0 (by omega) (by omega) (by omega)
      (by show 0 + 1 * 0 = 0; omega) (by show 0 + 1 * 0 = 0; omega)
      (by show 0 + 1 * (j 2).val = 0 + (j 2).val; omega) (by show 0 + 1 * (j 3).val = 0 + (j 3).val; omega)
      (by show 0 + 1 * 0 = 0; omega) (by show 0 + 1 * 0 = 0; omega)
      (by show 0 + 1 * (j 2).val = (j 2).val; omega) (by show 0 + 1 * (j 3).val = (j 3).val; omega))
    (tap_at m c t j (r0_2.idx (ix2_2 j)) (r0_3.idx (ix2_3 j)) 1 0 1 (by omega) (by omega) (by omega)
      (by show 0 + 1 * 0 = 0; omega) (by show 0 + 1 * 0 = 0; omega)
      (by show 1 + 1 * (j 2).val = 1 + (j 2).val; omega) (by show 0 + 1 * (j 3).val = 0 + (j 3).val; omega)
      (by show 0 + 1 * 0 = 0; omega) (by show 1 + 1 * 0 = 1; omega)
      (by show 0 + 1 * (j 2).val = (j 2).val; omega) (by show 0 + 1 * (j 3).val = (j 3).val; omega))
    (tap_at m c t j (r0_4.idx (ix2_4 j)) (r0_5.idx (ix2_5 j)) 2 0 2 (by omega) (by omega) (by omega)
      (by show 0 + 1 * 0 = 0; omega) (by show 0 + 1 * 0 = 0; omega)
      (by show 2 + 1 * (j 2).val = 2 + (j 2).val; omega) (by show 0 + 1 * (j 3).val = 0 + (j 3).val; omega)
      (by show 0 + 1 * 0 = 0; omega) (by show 2 + 1 * 0 = 2; omega)
      (by show 0 + 1 * (j 2).val = (j 2).val; omega) (by show 0 + 1 * (j 3).val = (j 3).val; omega))
    (tap_at m c t j (r0_6.idx (ix2_6 j)) (r0_7.idx (ix2_7 j)) 0 1 3 (by omega) (by omega) (by omega)
      (by show 0 + 1 * 0 = 0; omega) (by show 0 + 1 * 0 = 0; omega)
      (by show 0 + 1 * (j 2).val = 0 + (j 2).val; omega) (by show 1 + 1 * (j 3).val = 1 + (j 3).val; omega)
      (by show 0 + 1 * 0 = 0; omega) (by show 3 + 1 * 0 = 3; omega)
      (by show 0 + 1 * (j 2).val = (j 2).val; omega) (by show 0 + 1 * (j 3).val = (j 3).val; omega))
    (tap_at m c t j (r0_8.idx (ix2_8 j)) (r0_9.idx (ix2_9 j)) 1 1 4 (by omega) (by omega) (by omega)
      (by show 0 + 1 * 0 = 0; omega) (by show 0 + 1 * 0 = 0; omega)
      (by show 1 + 1 * (j 2).val = 1 + (j 2).val; omega) (by show 1 + 1 * (j 3).val = 1 + (j 3).val; omega)
      (by show 0 + 1 * 0 = 0; omega) (by show 4 + 1 * 0 = 4; omega)
      (by show 0 + 1 * (j 2).val = (j 2).val; omega) (by show 0 + 1 * (j 3).val = (j 3).val; omega))
    (tap_at m c t j (r0_10.idx (ix2_10 j)) (r0_11.idx (ix2_11 j)) 2 1 5 (by omega) (by omega) (by omega)
      (by show 0 + 1 * 0 = 0; omega) (by show 0 + 1 * 0 = 0; omega)
      (by show 2 + 1 * (j 2).val = 2 + (j 2).val; omega) (by show 1 + 1 * (j 3).val = 1 + (j 3).val; omega)
      (by show 0 + 1 * 0 = 0; omega) (by show 5 + 1 * 0 = 5; omega)
      (by show 0 + 1 * (j 2).val = (j 2).val; omega) (by show 0 + 1 * (j 3).val = (j 3).val; omega))
    (tap_at m c t j (r0_12.idx (ix2_12 j)) (r0_13.idx (ix2_13 j)) 0 2 6 (by omega) (by omega) (by omega)
      (by show 0 + 1 * 0 = 0; omega) (by show 0 + 1 * 0 = 0; omega)
      (by show 0 + 1 * (j 2).val = 0 + (j 2).val; omega) (by show 2 + 1 * (j 3).val = 2 + (j 3).val; omega)
      (by show 0 + 1 * 0 = 0; omega) (by show 6 + 1 * 0 = 6; omega)
      (by show 0 + 1 * (j 2).val = (j 2).val; omega) (by show 0 + 1 * (j 3).val = (j 3).val; omega))
    (tap_at m c t j (r0_14.idx (ix2_14 j)) (r0_15.idx (ix2_15 j)) 1 2 7 (by omega) (by omega) (by omega)
      (by show 0 + 1 * 0 = 0; omega) (by show 0 + 1 * 0 = 0; omega)
      (by show 1 + 1 * (j 2).val = 1 + (j 2).val; omega) (by show 2 + 1 * (j 3).val = 2 + (j 3).val; omega)
      (by show 0 + 1 * 0 = 0; omega) (by show 7 + 1 * 0 = 7; omega)
      (by show 0 + 1 * (j 2).val = (j 2).val; omega) (by show 0 + 1 * (j 3).val = (j 3).val; omega))
    (tap_at m c t j (r0_16.idx (ix2_16 j)) (r0_17.idx (ix2_17 j)) 2 2 8 (by omega) (by omega) (by omega)
      (by show 0 + 1 * 0 = 0; omega) (by show 0 + 1 * 0 = 0; omega)
      (by show 2 + 1 * (j 2).val = 2 + (j 2).val; omega) (by show 2 + 1 * (j 3).val = 2 + (j 3).val; omega)
      (by show 0 + 1 * 0 = 0; omega) (by show 8 + 1 * 0 = 8; omega)
      (by show 0 + 1 * (j 2).val = (j 2).val; omega) (by show 0 + 1 * (j 3).val = (j 3).val; omega))

/-- An index of the output array is in point `t`'s block iff each coordinate is in the block's range on its axis. -/
theorem mem_blk (t : Fin cfg0.N) (i : S16x1x512x512.Idx) :
    i ∈ ((cfg0.win 2).blk t).view.set ↔ ∀ a : Fin 4, win0_2.index t a * S1x1x512x512.size a ≤ (i a).val
      ∧ (i a).val < win0_2.index t a * S1x1x512x512.size a + S1x1x512x512.size a := by
  show i ∈ ((View.whole main_v1).slice (win0_2.rect t)).set ↔ _
  rw [View.set_slice_whole, Rect.mem_set_unit]
  exact Iff.rfl

/-- Every index of the output array is in the block of the point numbered by its batch coordinate. -/
theorem covered (i : S16x1x512x512.Idx) :
    ∃ t : Fin cfg0.N, (cfg0.win 2).flush t = true ∧ i ∈ ((cfg0.win 2).blk t).view.set := by
  have h0 : (i 0).val < 16 := (i 0).isLt
  have h1 : (i 1).val < 1 := (i 1).isLt
  have h2 : (i 2).val < 512 := (i 2).isLt
  have h3 : (i 3).val < 512 := (i 3).isLt
  obtain ⟨t, ht⟩ : ∃ t : Fin cfg0.N, t.val = (i 0).val := ⟨⟨(i 0).val, by rw [show cfg0.N = 16 from N_0]; exact h0⟩, rfl⟩
  obtain ⟨-, -, -, -, -, -, -, -, b0, b1, b2, b3⟩ := block_indices t
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 512 ≤ (i 2).val ∧ (i 2).val < win0_2.index t (2 : Fin 4) * 512 + 512; omega
  | ⟨3, _⟩ => show win0_2.index t (3 : Fin 4) * 512 ≤ (i 3).val ∧ (i 3).val < win0_2.index t (3 : Fin 4) * 512 + 512; omega

/-- THE OUTPUT ARRAY after the run is the convolution of the two arrays as the region finds them. -/
theorem final (c : Dev nD) :
    (dats m 0 c).arrAt 2 cfg0.N = conv (F := F) (V m c main_arg0) (V m c main_v0) :=
  (dats m 0 c).arrAt_eq_of_cover 2 (conv (F := F) (V m c main_arg0) (V m c main_v0)) (fun t _ => flushed_eq m c t) covered

/-- The padded image as the region finds it: the host operations before the region pad the image argument by one row and
    one column on every side with the integer zero converted to a float. -/
theorem padded (c : Dev nD) :
    (V m c main_v0 : Vec F S16x1x514x514 .f32)
      = pad S16x1x514x514 ![0, 0, 1, 1] ![0, 0, 1, 1] ![0, 0, 0, 0] (m ((c : Thread nD τ).loc main_arg1))
          (sitofp .f32 (constantI S_ 32 0#32)) pads_S16x1x512x512_S16x1x514x514_000_000_110_110 h_S_ := by
  dsimp only [V]
  simp only [hostOps0, hostOps0_1, List.flatten_cons, List.flatten_nil, List.append_nil, List.cons_append, List.nil_append]
  after_results
  rfl

/-- The run, read: the result array at the convolution of the weights with the padded image, the arguments
    unchanged. -/
theorem run : θ_run defs (onTc (τ := τ) (main (F := F))) ⟨m, fun _ => 0, ρ⟩ fun r => ∀ c : Dev nD,
      r.2.mem ((c : Thread nD τ).loc main_v1)
        = conv (F := F) (m ((c : Thread nD τ).loc main_arg0))
            (pad S16x1x514x514 ![0, 0, 1, 1] ![0, 0, 1, 1] ![0, 0, 0, 0] (m ((c : Thread nD τ).loc main_arg1))
              (sitofp .f32 (constantI S_ 32 0#32)) pads_S16x1x512x512_S16x1x514x514_000_000_110_110 h_S_)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [V_main_arg0 m c, padded m c])), (h c).2⟩)
    (run_blocks m ρ)

end Cert.KernelIdeal.ConvValue

end
-- ==== Proof.ReferenceConv.lean ====
/-
  The reference's last value IS the per-pixel convolution of its arguments.

  The reference pads the image, then nine times slices a 512 × 512 window out of the padded image (row offset `dh`,
  column offset `dw`), slices channel `3·dw + dh` out of the weights, multiplies the two and adds the product onto
  what it has so far, starting from a broadcast zero. Read at an output pixel `i`, a slice at offsets `(0, 0, dh, dw)`
  is the padded image at `i` shifted by `(dh, dw)`, a slice at offsets `(0, k, 0, 0)` is the weights' channel `k` at
  `i`: so the last value at `i` is the nine taps of `Cert.PixelConv.conv` added in its order.
-/
import proofs.«143331_j62045097558442_1_alg».proof.Proof.Gen.ReferenceIdeal.Read
import proofs.«143331_j62045097558442_1_alg».proof.Proof.ConvSpec

noncomputable section

open Idealize.ShloMosaic Idealize.ShloMosaic.TcCoe Idealize.SL.Sem

namespace Cert.ReferenceIdeal.ConvValue

open Cert.ReferenceIdeal Cert.ReferenceIdeal.Gen Cert.ReferenceIdeal.Read Cert.PixelConv

variable {F : FTy → Type} [FloatOps F]

/-- The reference's result, as a function of the weights `x0` and the image `x1`, is the convolution of the weights
    with the padded image: stage by stage at a pixel `i`, each sum is the sum before plus a product, each product a
    slice of the padded image times a slice of the weights, each slice its operand at the shifted index. -/
theorem result_is_conv (x0 : (⟨S16x9x512x512, .f32⟩ : BufTy).Contents (Elt F)) (x1 : (⟨S16x1x512x512, .f32⟩ : BufTy).Contents (Elt F)) :
    val_main_v37 (F := F) x0 x1 = conv (F := F) x0 (val_main_v0 (F := F) x1) := by
  funext i
  rw [val_main_v37_apply, val_main_v36_apply, val_main_v34_apply, val_main_v35_apply, val_main_v33_apply, val_main_v32_apply, val_main_v30_apply, val_main_v31_apply, val_main_v29_apply, val_main_v28_apply, val_main_v26_apply, val_main_v27_apply, val_main_v25_apply, val_main_v24_apply, val_main_v22_apply, val_main_v23_apply, val_main_v21_apply, val_main_v20_apply, val_main_v18_apply, val_main_v19_apply, val_main_v17_apply, val_main_v16_apply, val_main_v14_apply, val_main_v15_apply, val_main_v13_apply, val_main_v12_apply, val_main_v10_apply, val_main_v11_apply, val_main_v9_apply, val_main_v8_apply, val_main_v6_apply, val_main_v7_apply, val_main_v5_apply, val_main_v4_apply, val_main_v2_apply, val_main_v3_apply, val_main_v1_apply, val_main_cst_apply]
  exact addNine_congr _
    (tap_of x0 (val_main_v0 (F := F) x1) i 0 0 0 (by omega) (by omega) (by omega) (idx_main_v2 i) (idx_main_v3 i)
      rfl rfl (by show (i 2).val = 0 + (i 2).val; omega) (by show (i 3).val = 0 + (i 3).val; omega)
      rfl (by show (i 1).val = 0 + (i 1).val; omega) rfl rfl)
    (tap_of x0 (val_main_v0 (F := F) x1) i 1 0 1 (by omega) (by omega) (by omega) (idx_main_v6 i) (idx_main_v7 i)
      rfl rfl (by show 1 + (i 2).val = 1 + (i 2).val; rfl) (by show (i 3).val = 0 + (i 3).val; omega)
      rfl (by show 1 + (i 1).val = 1 + (i 1).val; rfl) rfl rfl)
    (tap_of x0 (val_main_v0 (F := F) x1) i 2 0 2 (by omega) (by omega) (by omega) (idx_main_v10 i) (idx_main_v11 i)
      rfl rfl (by show 2 + (i 2).val = 2 + (i 2).val; rfl) (by show (i 3).val = 0 + (i 3).val; omega)
      rfl (by show 2 + (i 1).val = 2 + (i 1).val; rfl) rfl rfl)
    (tap_of x0 (val_main_v0 (F := F) x1) i 0 1 3 (by omega) (by omega) (by omega) (idx_main_v14 i) (idx_main_v15 i)
      rfl rfl (by show (i 2).val = 0 + (i 2).val; omega) (by show 1 + (i 3).val = 1 + (i 3).val; rfl)
      rfl (by show 3 + (i 1).val = 3 + (i 1).val; rfl) rfl rfl)
    (tap_of x0 (val_main_v0 (F := F) x1) i 1 1 4 (by omega) (by omega) (by omega) (idx_main_v18 i) (idx_main_v19 i)
      rfl rfl (by show 1 + (i 2).val = 1 + (i 2).val; rfl) (by show 1 + (i 3).val = 1 + (i 3).val; rfl)
      rfl (by show 4 + (i 1).val = 4 + (i 1).val; rfl) rfl rfl)
    (tap_of x0 (val_main_v0 (F := F) x1) i 2 1 5 (by omega) (by omega) (by omega) (idx_main_v22 i) (idx_main_v23 i)
      rfl rfl (by show 2 + (i 2).val = 2 + (i 2).val; rfl) (by show 1 + (i 3).val = 1 + (i 3).val; rfl)
      rfl (by show 5 + (i 1).val = 5 + (i 1).val; rfl) rfl rfl)
    (tap_of x0 (val_main_v0 (F := F) x1) i 0 2 6 (by omega) (by omega) (by omega) (idx_main_v26 i) (idx_main_v27 i)
      rfl rfl (by show (i 2).val = 0 + (i 2).val; omega) (by show 2 + (i 3).val = 2 + (i 3).val; rfl)
      rfl (by show 6 + (i 1).val = 6 + (i 1).val; rfl) rfl rfl)
    (tap_of x0 (val_main_v0 (F := F) x1) i 1 2 7 (by omega) (by omega) (by omega) (idx_main_v30 i) (idx_main_v31 i)
      rfl rfl (by show 1 + (i 2).val = 1 + (i 2).val; rfl) (by show 2 + (i 3).val = 2 + (i 3).val; rfl)
      rfl (by show 7 + (i 1).val = 7 + (i 1).val; rfl) rfl rfl)
    (tap_of x0 (val_main_v0 (F := F) x1) i 2 2 8 (by omega) (by omega) (by omega) (idx_main_v34 i) (idx_main_v35 i)
      rfl rfl (by show 2 + (i 2).val = 2 + (i 2).val; rfl) (by show 2 + (i 3).val = 2 + (i 3).val; rfl)
      rfl (by show 8 + (i 1).val = 8 + (i 1).val; rfl) rfl rfl)

end Cert.ReferenceIdeal.ConvValue

end
-- ==== Proof.lean ====
/-
  A per-pixel 3 × 3 convolution, kernel against reference.

  Both programs take per-pixel weights `kernel : [16, 9, 512, 512]` and an image `image : [16, 1, 512, 512]`, pad the
  image with one row and one column of zeros on every side, and give each output pixel `(b, 0, h, w)` the nine products
  `padded[b, 0, h + dh, w + dw] · kernel[b, 3·dw + dh, h, w]` (`dh`, `dw` in 0, 1, 2) added onto zero one after the other,
  `dh` running fastest. The kernel does it batch entry by batch entry over a grid of sixteen points, on shifted windows of
  the padded block; the reference does it on whole arrays, by slices. The two add the same products in the same order,
  so their results are ONE function of the arguments, `Cert.PixelConv.conv` (Proof/ConvSpec.lean), for any float
  arithmetic: no law of arithmetic is used and the finiteness of the inputs is never opened.

  Proof/KernelConv.lean: the kernel's result array ends holding `conv` of the weights and the padded image.
  Proof/ReferenceConv.lean: the reference's last value is the same `conv`.
  Here: the three frames (the two kernel programs' are generated; the reference's is its run with the result
  dropped), the idealization (no operation was rewritten), and the equality of the two results.
-/
import proofs.«143331_j62045097558442_1_alg».proof.Defs
import proofs.«143331_j62045097558442_1_alg».proof.Proof.Gen.Kernel
import proofs.«143331_j62045097558442_1_alg».proof.Proof.Gen.Kernel.Skeleton
import proofs.«143331_j62045097558442_1_alg».proof.Proof.Gen.Kernel.Launch
import proofs.«143331_j62045097558442_1_alg».proof.Proof.Gen.Kernel.Points
import proofs.«143331_j62045097558442_1_alg».proof.Proof.Gen.Kernel.Frame
import proofs.«143331_j62045097558442_1_alg».proof.Proof.Gen.KernelIdeal
import proofs.«143331_j62045097558442_1_alg».proof.Proof.Gen.KernelIdeal.Skeleton
import proofs.«143331_j62045097558442_1_alg».proof.Proof.Gen.KernelIdeal.Launch
import proofs.«143331_j62045097558442_1_alg».proof.Proof.Gen.KernelIdeal.Points
import proofs.«143331_j62045097558442_1_alg».proof.Proof.Gen.KernelIdeal.Frame
import proofs.«143331_j62045097558442_1_alg».proof.Proof.Gen.ReferenceIdeal
import proofs.«143331_j62045097558442_1_alg».proof.Proof.Gen.Pre_finite_inputs
import proofs.«143331_j62045097558442_1_alg».proof.Proof.Gen.KernelIdeal.Value
import proofs.«143331_j62045097558442_1_alg».proof.Proof.Gen.ReferenceIdeal.Run
import proofs.«143331_j62045097558442_1_alg».proof.Proof.Gen.ReferenceIdeal.Read
import proofs.«143331_j62045097558442_1_alg».proof.Proof.ConvSpec
import proofs.«143331_j62045097558442_1_alg».proof.Proof.KernelConv
import proofs.«143331_j62045097558442_1_alg».proof.Proof.ReferenceConv
import Idealize.ShloMosaic.Adequacy
import Idealize.ShloMosaic.Init

noncomputable section

namespace Cert.Proof

open Idealize.ShloMosaic Idealize.SL.Sem Cert.Kernel

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: no operation was rewritten. -/
theorem preserves : Cert.preserves_Kernel_KernelIdeal := trivial

/-- From memories that agree on the weights and the image, the kernel's result array ends at the convolution of the
    weights with the padded image, and so does the reference's last value: the same nine products added onto zero in
    the same order, the padded image the same padding of the same image. -/
theorem algebraic : Cert.algebraic_KernelIdeal_ReferenceIdeal := by
  intro m ρ m' ρ' _ hagree
  refine ⟨_, Cert.KernelIdeal.ConvValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.ConvValue.result_is_conv, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
